-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x512 : Shape := ⟨3, ![16, 8192, 512]⟩
abbrev S_ : Shape := ⟨0, ![]⟩

class Facts : Prop where
  bcast_S_S16x8192x512 : S_.BroadcastsInDim S16x8192x512 (![] : Fin 0 → Fin S16x8192x512.rank)
  reducesTo_S16x8192x512_S_d0_1_2 : S16x8192x512.ReducesTo [0, 1, 2] S_
  h_S_ : 0 < S_.numel

variable [Facts]

def fn {F : FTy → Type} [FloatOps F] (main_arg0 : FVec F S16x8192x512 .f32) : IVec S_ 1 :=
  let main_v0 : FVec F S16x8192x512 .f32 := Host.absf main_arg0
  let main_cst : FVec F S_ .f32 := constant S_ .f32 0x7F800000#32
  let main_v1 : FVec F S16x8192x512 .f32 := broadcastInDim S16x8192x512 ![] bcast_S_S16x8192x512 main_cst
  let main_v2 : IVec S16x8192x512 1 := cmpf .olt main_v0 main_v1
  let main_c : IVec S_ 1 := constantI S_ 1 1#1
  let main_v3 : IVec S_ 1 := (fun x v => Host.reduce IntOp.andi x v reducesTo_S16x8192x512_S_d0_1_2 h_S_) main_v2 main_c
  main_v3
-- ==== Kernel.lean ====
abbrev S16x8192x512 : Shape := ⟨3, ![16, 8192, 512]⟩
abbrev S1x2048x512 : Shape := ⟨3, ![1, 2048, 512]⟩
abbrev S1x1024x512 : Shape := ⟨3, ![1, 1024, 512]⟩
abbrev S2048x512 : Shape := ⟨2, ![2048, 512]⟩
abbrev S1024x2x512 : Shape := ⟨3, ![1024, 2, 512]⟩
abbrev S1024x1x512 : Shape := ⟨3, ![1024, 1, 512]⟩
abbrev S1024x512 : Shape := ⟨2, ![1024, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x8192x512, .f32⟩
  | .hbm, ⟨1, _⟩ => ⟨S16x8192x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1024x512, .f32⟩
  | .local _ .vmem, ⟨3, _⟩ => ⟨S1x1024x512, .f32⟩
  | _, _ => ⟨S16x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![16, 4, 2], ![false, false, false]⟩

def k0_cond1 (i : grid0.Coords) : BitVec 1 :=
  let arg2 : BitVec 32 := BitVec.ofNat 32 (i 2).val
  let c0_i32 : BitVec 32 := 0#32
  let v13 : BitVec 1 := Scalar.cmpi .eq arg2 c0_i32
  let v14 : BitVec 32 := Scalar.extui v13
  let c0_i32_3 : BitVec 32 := 0#32
  let v15 : BitVec 1 := Scalar.cmpi .ne v14 c0_i32_3
  v15

def k0_cond2 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_4 : BitVec 32 := 0#32
  let v18 : BitVec 1 := Scalar.cmpi .ne v17 c0_i32_4
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  let c0_i32_0 : BitVec 32 := 0#32
  ![arg0.toNat, v1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1024x2x512 : S2048x512.ShapeCasts S1024x2x512
  slices_S1024x2x512_o0_0_0_S1024x1x512 : S1024x2x512.Slices ![0, 0, 0] S1024x1x512
  shapeCasts_S1024x1x512_S1024x512 : S1024x1x512.ShapeCasts S1024x512
  slices_S1024x2x512_o0_1_0_S1024x1x512 : S1024x2x512.Slices ![0, 1, 0] S1024x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x8192x512.size a
  hwx0_0 : ∀ i : grid0.Coords, EltTy.bits .f32 = 32 ∨ (Rect.block (s := S16x8192x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x8192x512.size a
  hwx0_1 : ∀ i : grid0.Coords, EltTy.bits .f32 = 32 ∨ (Rect.block (s := S16x8192x512) S1x1024x512.size (cc0_transform_1 i) (hinb0_1 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S16x8192x512 : Shape := ⟨3, ![16, 8192, 512]⟩
abbrev S16x4096x2x512 : Shape := ⟨4, ![16, 4096, 2, 512]⟩
abbrev S16x4096x1x512 : Shape := ⟨4, ![16, 4096, 1, 512]⟩
abbrev S16x4096x512 : Shape := ⟨3, ![16, 4096, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S16x4096x2x512, .f32⟩
  | .hbm, ⟨2, _⟩ => ⟨S16x4096x1x512, .f32⟩
  | .hbm, ⟨3, _⟩ => ⟨S16x4096x512, .f32⟩
  | .hbm, ⟨4, _⟩ => ⟨S16x4096x1x512, .f32⟩
  | .hbm, ⟨5, _⟩ => ⟨S16x4096x512, .f32⟩
  | .hbm, ⟨6, _⟩ => ⟨S16x4096x512, .f32⟩
  | .hbm, ⟨7, _⟩ => ⟨S_, .f32⟩
  | .hbm, ⟨8, _⟩ => ⟨S16x4096x512, .f32⟩
  | .hbm, ⟨9, _⟩ => ⟨S16x4096x512, .f32⟩
  | .hbm, ⟨10, _⟩ => ⟨S16x4096x512, .f32⟩
  | .hbm, ⟨11, _⟩ => ⟨S_, .f32⟩
  | .hbm, ⟨12, _⟩ => ⟨S16x4096x512, .f32⟩
  | .hbm, ⟨13, _⟩ => ⟨S16x4096x512, .f32⟩
  | .hbm, ⟨14, _⟩ => ⟨S16x8192x512, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S16x8192x512_S16x4096x2x512 : S16x8192x512.ShapeCasts S16x4096x2x512
  slices_S16x4096x2x512_S16x4096x1x512_0_0_0_0 : S16x4096x2x512.Slices ![0, 0, 0, 0] S16x4096x1x512
  shapeCasts_S16x4096x1x512_S16x4096x512 : S16x4096x1x512.ShapeCasts S16x4096x512
  slices_S16x4096x2x512_S16x4096x1x512_0_0_1_0 : S16x4096x2x512.Slices ![0, 0, 1, 0] S16x4096x1x512
  bcast_S_S16x4096x512 : S_.BroadcastsInDim S16x4096x512 (![] : Fin 0 → Fin S16x4096x512.rank)
  concatenates_S16x4096x512_S16x4096x512_S16x8192x512_d1 : Shape.Concatenates [S16x4096x512, S16x4096x512] S16x8192x512 1

variable [Facts₀]

class Facts : Prop extends Facts₀ where

variable [Facts]
-- ==== Proof.HaarSpec.lean ====
/-
  The single-level Haar transform along the row axis of an array of 16 x 8192 x 512 extended reals, as ONE function of
  the input array: output row r, for r < 4096, is the scaled SUM of input rows 2r and 2r + 1; output row 4096 + r is
  their scaled DIFFERENCE. The scale is one fixed number (the binary32 value nearest 1/sqrt 2); nothing about it
  is used beyond its being the same number wherever it occurs.

  Also here: the one re-indexing fact behind both programs. Rows of an array regrouped in consecutive pairs
  (a reshape [.., 2n, c] -> [.., n, 2, c]), then the pair's member o taken (a unit-stride slice of the pair axis at
  offset o) and the unit axis dropped, read at row k the original row 2k + o. It is stated twice, once for a block
  [1, 2048, 512] viewed through [2048, 512], once for the whole array [16, 8192, 512].
-/
import Idealize.ShloMosaic.PureOps.Ideal
import Idealize.ShloMosaic.Lib.ValueIdx
import Idealize.ShloMosaic.Lib.ValueLayout
import Idealize.ShloMosaic.Lib.Pipeline.Value

noncomputable section

namespace Cert.Haar

open Idealize.ShloMosaic Idealize.ShloMosaic.ValueIdx

/-- An array of the transform's shape. -/
abbrev Arr : Type := (⟨3, ![16, 8192, 512]⟩ : Shape).Idx → EReal

/-- The filter coefficient, as an extended real. -/
def scale : EReal := Ideal.ofBits .f32 0x3F3504F3#32

/-- The input rows that output row r pairs: 2 (r mod 4096) and the next. -/
def evenOf (r : Fin 8192) : Fin 8192 := ⟨2 * (r.val % 4096), by omega⟩
def oddOf (r : Fin 8192) : Fin 8192 := ⟨2 * (r.val % 4096) + 1, by omega⟩

/-- The transform at coordinates: approximation coefficients in the first 4096 rows, details in the last. -/
def haarAt (x : Arr) (b : Fin 16) (r : Fin 8192) (ch : Fin 512) : EReal :=
  if r.val < 4096 then (x (ix3 b (evenOf r) ch) + x (ix3 b (oddOf r) ch)) * scale
  else (x (ix3 b (evenOf r) ch) - x (ix3 b (oddOf r) ch)) * scale

/-- The transform. -/
def haar (x : Arr) : Arr := fun j => haarAt x (j 0) (j 1) (j 2)

/-- Row k of either half is a row of the array. -/
theorem low_row_lt (k : Fin 4096) : k.val < 8192 := by omega
theorem high_row_lt (k : Fin 4096) : 4096 + k.val < 8192 := by omega

/-- In the first half of the rows the transform is the scaled sum of the pair. -/
theorem haar_sum (x : Arr) (i : (⟨3, ![16, 8192, 512]⟩ : Shape).Idx) (b : Fin 16) (k : Fin 4096) (ch : Fin 512)
    (e o : Fin 8192) (h0 : (i 0).val = b.val) (h1 : (i 1).val = k.val) (h2 : (i 2).val = ch.val)
    (he : e.val = 2 * k.val) (ho : o.val = 2 * k.val + 1) :
    haar x i = (x (ix3 b e ch) + x (ix3 b o ch)) * scale := by
  have hk : k.val < 4096 := k.isLt
  have hi : i = ix3 b (⟨k.val, low_row_lt k⟩ : Fin 8192) ch := funext fun a => Fin.ext (by
    match a with
    | ⟨0, _⟩ => exact h0
    | ⟨1, _⟩ => exact h1
    | ⟨2, _⟩ => exact h2)
  subst hi
  have ee : evenOf (⟨k.val, low_row_lt k⟩ : Fin 8192) = e := Fin.ext (by show 2 * (k.val % 4096) = e.val; omega)
  have oo : oddOf (⟨k.val, low_row_lt k⟩ : Fin 8192) = o := Fin.ext (by show 2 * (k.val % 4096) + 1 = o.val; omega)
  show haarAt x b (⟨k.val, low_row_lt k⟩ : Fin 8192) ch = _
  unfold haarAt
  rw [if_pos (show (⟨k.val, low_row_lt k⟩ : Fin 8192).val < 4096 from hk), ee, oo]

/-- In the second half it is the scaled difference. -/
theorem haar_diff (x : Arr) (i : (⟨3, ![16, 8192, 512]⟩ : Shape).Idx) (b : Fin 16) (k : Fin 4096) (ch : Fin 512)
    (e o : Fin 8192) (h0 : (i 0).val = b.val) (h1 : (i 1).val = 4096 + k.val) (h2 : (i 2).val = ch.val)
    (he : e.val = 2 * k.val) (ho : o.val = 2 * k.val + 1) :
    haar x i = (x (ix3 b e ch) - x (ix3 b o ch)) * scale := by
  have hk : k.val < 4096 := k.isLt
  have hi : i = ix3 b (⟨4096 + k.val, high_row_lt k⟩ : Fin 8192) ch := funext fun a => Fin.ext (by
    match a with
    | ⟨0, _⟩ => exact h0
    | ⟨1, _⟩ => exact h1
    | ⟨2, _⟩ => exact h2)
  subst hi
  have ee : evenOf (⟨4096 + k.val, high_row_lt k⟩ : Fin 8192) = e := Fin.ext (by show 2 * ((4096 + k.val) % 4096) = e.val; omega)
  have oo : oddOf (⟨4096 + k.val, high_row_lt k⟩ : Fin 8192) = o := Fin.ext (by show 2 * ((4096 + k.val) % 4096) + 1 = o.val; omega)
  show haarAt x b (⟨4096 + k.val, high_row_lt k⟩ : Fin 8192) ch = _
  unfold haarAt
  rw [if_neg (show ¬ (⟨4096 + k.val, high_row_lt k⟩ : Fin 8192).val < 4096 from by show ¬ (4096 + k.val < 4096); omega), ee, oo]

/-! ## Rows regrouped in pairs -/

section Pairs

variable {α : Type}

/-- A block of 2048 rows, its leading unit axis dropped, regrouped as 1024 pairs: member o of pair k is row 2k + o. -/
theorem pair_of_block (v : (⟨3, ![1, 2048, 512]⟩ : Shape).Idx → α)
    (h1 : (⟨3, ![1, 2048, 512]⟩ : Shape).ShapeCasts ⟨2, ![2048, 512]⟩)
    (h2 : (⟨2, ![2048, 512]⟩ : Shape).ShapeCasts ⟨3, ![1024, 2, 512]⟩)
    (o : Nat) (ho : o < 2) (hs : (⟨3, ![1024, 2, 512]⟩ : Shape).Slices ![0, o, 0] ⟨3, ![1024, 1, 512]⟩)
    (h3 : (⟨3, ![1024, 1, 512]⟩ : Shape).ShapeCasts ⟨2, ![1024, 512]⟩)
    (k : Fin 1024) (ch : Fin 512) (e : Fin 2048) (he : e.val = 2 * k.val + o) :
    shapeCast ⟨2, ![1024, 512]⟩ (extractStridedSlice ⟨3, ![1024, 1, 512]⟩ ![0, o, 0]
      (shapeCast ⟨3, ![1024, 2, 512]⟩ (shapeCast ⟨2, ![2048, 512]⟩ v h1) h2) hs) h3 (ix2 k ch)
      = v (ix3 (0 : Fin 1) e ch) := by
  refine (shapeCast_apply _ h3 (ix2 k ch) (ix3 k (0 : Fin 1) ch) ?_).trans ?_
  · rw [Shape.rowMajor_val_three, Shape.rowMajor_val_two]
    show (k.val * 1 + 0) * 512 + ch.val = k.val * 512 + ch.val
    omega
  refine (slice3_axis1_apply o _ hs k (0 : Fin 1) ch (⟨o, ho⟩ : Fin 2) (by show o = o + 0; omega)).trans ?_
  refine (shapeCast_apply _ h2 (ix3 k (⟨o, ho⟩ : Fin 2) ch) (ix2 (⟨2 * k.val + o, by omega⟩ : Fin 2048) ch) ?_).trans ?_
  · rw [Shape.rowMajor_val_two, Shape.rowMajor_val_three]
    show (2 * k.val + o) * 512 + ch.val = (k.val * 2 + o) * 512 + ch.val
    omega
  refine shapeCast_apply _ h1 (ix2 (⟨2 * k.val + o, by omega⟩ : Fin 2048) ch) (ix3 (0 : Fin 1) e ch) ?_
  rw [Shape.rowMajor_val_three, Shape.rowMajor_val_two]
  show (0 * 2048 + e.val) * 512 + ch.val = (2 * k.val + o) * 512 + ch.val
  omega

/-- The whole array's 8192 rows regrouped as 4096 pairs: member o of pair k is row 2k + o. -/
theorem pair_of_array (x : (⟨3, ![16, 8192, 512]⟩ : Shape).Idx → α)
    (h1 : (⟨3, ![16, 8192, 512]⟩ : Shape).ShapeCasts ⟨4, ![16, 4096, 2, 512]⟩)
    (o : Nat) (ho : o < 2) (hs : (⟨4, ![16, 4096, 2, 512]⟩ : Shape).Slices ![0, 0, o, 0] ⟨4, ![16, 4096, 1, 512]⟩)
    (h3 : (⟨4, ![16, 4096, 1, 512]⟩ : Shape).ShapeCasts ⟨3, ![16, 4096, 512]⟩)
    (b : Fin 16) (k : Fin 4096) (ch : Fin 512) (e : Fin 8192) (he : e.val = 2 * k.val + o) :
    shapeCast ⟨3, ![16, 4096, 512]⟩ (extractStridedSlice ⟨4, ![16, 4096, 1, 512]⟩ ![0, 0, o, 0]
      (shapeCast ⟨4, ![16, 4096, 2, 512]⟩ x h1) hs) h3 (ix3 b k ch)
      = x (ix3 b e ch) := by
  refine (shapeCast_apply _ h3 (ix3 b k ch) (ix4 b k (0 : Fin 1) ch) ?_).trans ?_
  · rw [Shape.rowMajor_val_four, Shape.rowMajor_val_three]
    show ((b.val * 4096 + k.val) * 1 + 0) * 512 + ch.val = (b.val * 4096 + k.val) * 512 + ch.val
    omega
  refine (slice4_axis2_apply o _ hs b k (0 : Fin 1) ch (⟨o, ho⟩ : Fin 2) (by show o = o + 0; omega)).trans ?_
  refine shapeCast_apply _ h1 (ix4 b k (⟨o, ho⟩ : Fin 2) ch) (ix3 b e ch) ?_
  rw [Shape.rowMajor_val_three, Shape.rowMajor_val_four]
  show (b.val * 8192 + e.val) * 512 + ch.val = ((b.val * 4096 + k.val) * 2 + o) * 512 + ch.val
  omega

end Pairs

end Cert.Haar

end
-- ==== Proof.BlockValue.lean ====
/-
  What one grid point leaves in the output's staging block, as a value.

  At an even point the body stores the scaled sums of its input block's row pairs, at an odd point the scaled
  differences; either store covers the whole [1, 1024, 512] block, so the block's contents are that store's payload
  (the load of the output buffer that precedes the store is not used by it). Read at row k and channel ch, the
  payload is (v(2k, ch) + v(2k+1, ch)) * scale, respectively (v(2k, ch) - v(2k+1, ch)) * scale, of the input
  block v of 2048 rows.
-/
import proofs.«149323_j86955907874874_1_alg».proof.Proof.Gen.KernelIdeal.Frame
import proofs.«149323_j86955907874874_1_alg».proof.Proof.HaarSpec
import Idealize.ShloMosaic.Lib.Pipeline.Value
import Idealize.ShloMosaic.Lib.ValueLayout
import Idealize.ShloMosaic.Lib.Tactic

noncomputable section

namespace Cert.KernelIdeal.Block

open Cert.KernelIdeal Cert.KernelIdeal.Gen Idealize.ShloMosaic Idealize.ShloMosaic.TcCoe Idealize.SL.Sem
open Idealize.ShloMosaic.ValueIdx Cert.Haar

variable {F : FTy → Type} [FloatOps F]

theorem zero_offsets : (![0, 0, 0] : Fin 3 → Nat) = fun _ => 0 := funext fun a => by fin_cases a <;> rfl

/-- At an even point the output block ends holding the sums' payload of the input block. -/
theorem stored_even (c : Dev nD) (i : grid0.Coords) (a3 : Memref sig .tc .vmem S1x2048x512 .f32) (h3 : a3.IsWhole)
    (a4 : Memref sig .tc .vmem S1x1024x512 .f32) (h4 : a4.IsWhole) (hc0 : cond0_0 i) (hc1 : ¬cond0_1 i)
    (x0 : Vec F S1x2048x512 .f32) :
    out0_A_1 c i a3 h3 a4 h4 hc0 hc1 x0 = k0_pay4 x0 := by
  unfold out0_A_1
  rw [View.read_writes_eq_canon _ _ _ (cover0_A_1 c i a3 h3 a4 h4 hc0 hc1 x0)]
  unfold kernelRun0_A
  dsimp only
  sl_unfold_words
  rw [View.canon_unit_zero zero_offsets]
  simp only [View.readAt_eq_ld, h3.read_unread, View.ld_unit_zero (S := S1x2048x512) zero_offsets]

/-- At an odd point, the differences' payload. -/
theorem stored_odd (c : Dev nD) (i : grid0.Coords) (a3 : Memref sig .tc .vmem S1x2048x512 .f32) (h3 : a3.IsWhole)
    (a4 : Memref sig .tc .vmem S1x1024x512 .f32) (h4 : a4.IsWhole) (hc0 : ¬cond0_0 i) (hc1 : cond0_1 i)
    (x0 : Vec F S1x2048x512 .f32) :
    out0_B_1 c i a3 h3 a4 h4 hc0 hc1 x0 = k0_pay5 x0 := by
  unfold out0_B_1
  rw [View.read_writes_eq_canon _ _ _ (cover0_B_1 c i a3 h3 a4 h4 hc0 hc1 x0)]
  unfold kernelRun0_B
  dsimp only
  sl_unfold_words
  rw [View.canon_unit_zero zero_offsets]
  simp only [View.readAt_eq_ld, h3.read_unread, View.ld_unit_zero (S := S1x2048x512) zero_offsets]

/-! ## The payloads over the extended reals, at a row and a channel -/

/-- The even member of pair k of the block is its row 2k. -/
theorem even_rows_apply (v : Vec Ideal S1x2048x512 .f32) (k : Fin 1024) (ch : Fin 512) (e : Fin 2048)
    (he : e.val = 2 * k.val) : k0_pay2 v (ix2 k ch) = v (ix3 (0 : Fin 1) e ch) := by
  unfold k0_pay2 k0_pay1
  exact pair_of_block v _ _ 0 (by omega) _ _ k ch e (by omega)

/-- The odd member is its row 2k + 1. -/
theorem odd_rows_apply (v : Vec Ideal S1x2048x512 .f32) (k : Fin 1024) (ch : Fin 512) (o : Fin 2048)
    (ho : o.val = 2 * k.val + 1) : k0_pay3 v (ix2 k ch) = v (ix3 (0 : Fin 1) o ch) := by
  unfold k0_pay3 k0_pay1
  exact pair_of_block v _ _ 1 (by omega) _ _ k ch o ho

/-- The sums' payload at (k, ch). -/
theorem sums_apply (v : Vec Ideal S1x2048x512 .f32) (u : Fin 1) (k : Fin 1024) (ch : Fin 512) (e o : Fin 2048)
    (he : e.val = 2 * k.val) (ho : o.val = 2 * k.val + 1) :
    k0_pay4 v (ix3 u k ch) = (v (ix3 (0 : Fin 1) e ch) + v (ix3 (0 : Fin 1) o ch)) * scale := by
  unfold k0_pay4
  refine (shapeCast_ab_1ab_apply _ _ u k ch).trans ?_
  show (k0_pay2 v (ix2 k ch) + k0_pay3 v (ix2 k ch)) * scale = _
  rw [even_rows_apply v k ch e he, odd_rows_apply v k ch o ho]

/-- The differences' payload at (k, ch). -/
theorem diffs_apply (v : Vec Ideal S1x2048x512 .f32) (u : Fin 1) (k : Fin 1024) (ch : Fin 512) (e o : Fin 2048)
    (he : e.val = 2 * k.val) (ho : o.val = 2 * k.val + 1) :
    k0_pay5 v (ix3 u k ch) = (v (ix3 (0 : Fin 1) e ch) - v (ix3 (0 : Fin 1) o ch)) * scale := by
  unfold k0_pay5
  refine (shapeCast_ab_1ab_apply _ _ u k ch).trans ?_
  show (k0_pay2 v (ix2 k ch) - k0_pay3 v (ix2 k ch)) * scale = _
  rw [even_rows_apply v k ch e he, odd_rows_apply v k ch o ho]

end Cert.KernelIdeal.Block

end
-- ==== Proof.KernelArray.lean ====
/-
  The kernel's result array, over the extended reals, is the Haar transform of its argument array.

  Grid point t = (b, c, h) reads rows [2048 c, 2048 (c + 1)) of batch b and writes rows
  [1024 (4 h + c), 1024 (4 h + c + 1)) of batch b: for h = 0 the scaled sums of the row pairs, which are output rows
  1024 c + k < 4096 of the transform, for h = 1 the scaled differences, output rows 4096 + 1024 c + k. So what every
  point writes back is the transform restricted to the point's block; the 128 blocks tile the array; hence the array
  ends holding the transform.
-/
import proofs.«149323_j86955907874874_1_alg».proof.Proof.Gen.KernelIdeal.Value
import proofs.«149323_j86955907874874_1_alg».proof.Proof.BlockValue

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Haar Cert.KernelIdeal.Block

variable (m : (ℓ : Loc nD τ sig) → Buf (Elt Ideal) ℓ) (ρ : Dev nD → PrngReg)

/-- The two windows' block indices at a point, decided over the 128 points: the input's batch and chunk are in range
    and its channel block is 0; the output's batch is the input's, its row block is 4 (t mod 2) + the input's chunk,
    its channel block is 0. -/
theorem index_facts : ∀ t : Fin cfg0.N,
    win0_0.index t (0 : Fin 3) < 16 ∧ win0_0.index t (1 : Fin 3) < 4 ∧ win0_0.index t (2 : Fin 3) = 0
    ∧ win0_1.index t (0 : Fin 3) = win0_0.index t (0 : Fin 3)
    ∧ win0_1.index t (1 : Fin 3) = 4 * (t.val % 2) + win0_0.index t (1 : Fin 3)
    ∧ win0_1.index t (2 : Fin 3) = 0 :=
  (by decide +kernel : ∀ t : Fin grid0.N, _)

/-- Every (batch, row block) is some point's output block. -/
theorem index_onto : ∀ (q0 : Fin 16) (q1 : Fin 8), ∃ t : Fin cfg0.N, win0_1.index t = ![q0.val, q1.val, 0] :=
  (by decide +kernel : ∀ (q0 : Fin 16) (q1 : Fin 8), ∃ t : Fin grid0.N, win0_1.index t = ![q0.val, q1.val, 0])

/-- Row e of the input block at point t is row (chunk * 2048 + e) of the argument array, in the point's batch. -/
theorem iblk_row (c : Dev nD) (t : Fin cfg0.N) (b : Fin 16) (e : Fin 2048) (E : Fin 8192) (ch : Fin 512)
    (hb : b.val = win0_0.index t (0 : Fin 3)) (hE : E.val = win0_0.index t (1 : Fin 3) * 2048 + e.val)
    (hz : win0_0.index t (2 : Fin 3) = 0) :
    iblk m c 0 t (ix3 (0 : Fin 1) e ch) = V m c main_arg0 (ix3 b E ch) := by
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 2048 + 1 * e.val = E.val; omega
  | ⟨2, _⟩ => show win0_0.index t (2 : Fin 3) * 512 + 1 * ch.val = ch.val; omega

/-- WHAT POINT t WRITES BACK is the transform of the argument array read through the point's block. -/
theorem flushed_eq (c : Dev nD) (t : Fin cfg0.N) :
    (dats m 0 c).flushed 1 t = ((cfg0.win 1).blk t).view.read (Elt Ideal) (haar (V m c main_arg0)) := by
  obtain ⟨b16, c4, z0, eb, er, ez⟩ := index_facts t
  by_cases h0 : t.val % 2 = 0
  · have h1 : ¬ t.val % 2 = 1 := by omega
    rw [Value.flushed1_A m c t h0 h1,
      stored_even c (grid0.coords t) (ms0_0 t) (hs0_0 t) (ms0_1 t) (hs0_1 t) ((hcond0_0 t).mpr h0)
        (fun h => h1 ((hcond0_1 t).mp h)) (iblk m c 0 t)]
    funext j
    have hj0 : (j 0).val < 1 := (j 0).isLt
    have hj1 : (j 1).val < 1024 := (j 1).isLt
    have hj2 : (j 2).val < 512 := (j 2).isLt
    rw [View.read_apply]
    show k0_pay4 (iblk m c 0 t) ((cfg0.win 1).xinj (grid0.coords t) j) = _
    have hy : (cfg0.win 1).xinj (grid0.coords t) j
        = ix3 (⟨(j 0).val, hj0⟩ : Fin 1) (⟨(j 1).val, hj1⟩ : Fin 1024) (⟨(j 2).val, hj2⟩ : Fin 512) :=
      funext fun a => by
        match a with
        | ⟨0, _⟩ => rfl
        | ⟨1, _⟩ => rfl
        | ⟨2, _⟩ => rfl
    refine (congrArg (k0_pay4 (iblk m c 0 t)) hy).trans ?_
    refine (sums_apply (iblk m c 0 t) _ _ _ (⟨2 * (j 1).val, by omega⟩ : Fin 2048) (⟨2 * (j 1).val + 1, by omega⟩ : Fin 2048) rfl rfl).trans ?_
    rw [iblk_row m c t (⟨win0_0.index t (0 : Fin 3), b16⟩ : Fin 16) _
        (⟨win0_0.index t (1 : Fin 3) * 2048 + 2 * (j 1).val, by omega⟩ : Fin 8192) _ rfl rfl z0,
      iblk_row m c t (⟨win0_0.index t (0 : Fin 3), b16⟩ : Fin 16) _
        (⟨win0_0.index t (1 : Fin 3) * 2048 + (2 * (j 1).val + 1), by omega⟩ : Fin 8192) _ rfl rfl z0]
    refine (haar_sum (V m c main_arg0) _ _ (⟨win0_0.index t (1 : Fin 3) * 1024 + (j 1).val, by omega⟩ : Fin 4096) _ _ _
      ?_ ?_ ?_ ?_ ?_).symm
    · show win0_1.index t (0 : Fin 3) * 1 + 1 * (j 0).val = win0_0.index t (0 : Fin 3); omega
    · show win0_1.index t (1 : Fin 3) * 1024 + 1 * (j 1).val = win0_0.index t (1 : Fin 3) * 1024 + (j 1).val; omega
    · show win0_1.index t (2 : Fin 3) * 512 + 1 * (j 2).val = (j 2).val; omega
    · show win0_0.index t (1 : Fin 3) * 2048 + 2 * (j 1).val = 2 * (win0_0.index t (1 : Fin 3) * 1024 + (j 1).val); omega
    · show win0_0.index t (1 : Fin 3) * 2048 + (2 * (j 1).val + 1) = 2 * (win0_0.index t (1 : Fin 3) * 1024 + (j 1).val) + 1; omega
  · have h1 : t.val % 2 = 1 := by omega
    rw [Value.flushed1_B m c t h0 h1,
      stored_odd c (grid0.coords t) (ms0_0 t) (hs0_0 t) (ms0_1 t) (hs0_1 t) (fun h => h0 ((hcond0_0 t).mp h))
        ((hcond0_1 t).mpr h1) (iblk m c 0 t)]
    funext j
    have hj0 : (j 0).val < 1 := (j 0).isLt
    have hj1 : (j 1).val < 1024 := (j 1).isLt
    have hj2 : (j 2).val < 512 := (j 2).isLt
    rw [View.read_apply]
    show k0_pay5 (iblk m c 0 t) ((cfg0.win 1).xinj (grid0.coords t) j) = _
    have hy : (cfg0.win 1).xinj (grid0.coords t) j
        = ix3 (⟨(j 0).val, hj0⟩ : Fin 1) (⟨(j 1).val, hj1⟩ : Fin 1024) (⟨(j 2).val, hj2⟩ : Fin 512) :=
      funext fun a => by
        match a with
        | ⟨0, _⟩ => rfl
        | ⟨1, _⟩ => rfl
        | ⟨2, _⟩ => rfl
    refine (congrArg (k0_pay5 (iblk m c 0 t)) hy).trans ?_
    refine (diffs_apply (iblk m c 0 t) _ _ _ (⟨2 * (j 1).val, by omega⟩ : Fin 2048) (⟨2 * (j 1).val + 1, by omega⟩ : Fin 2048) rfl rfl).trans ?_
    rw [iblk_row m c t (⟨win0_0.index t (0 : Fin 3), b16⟩ : Fin 16) _
        (⟨win0_0.index t (1 : Fin 3) * 2048 + 2 * (j 1).val, by omega⟩ : Fin 8192) _ rfl rfl z0,
      iblk_row m c t (⟨win0_0.index t (0 : Fin 3), b16⟩ : Fin 16) _
        (⟨win0_0.index t (1 : Fin 3) * 2048 + (2 * (j 1).val + 1), by omega⟩ : Fin 8192) _ rfl rfl z0]
    refine (haar_diff (V m c main_arg0) _ _ (⟨win0_0.index t (1 : Fin 3) * 1024 + (j 1).val, by omega⟩ : Fin 4096) _ _ _
      ?_ ?_ ?_ ?_ ?_).symm
    · show win0_1.index t (0 : Fin 3) * 1 + 1 * (j 0).val = win0_0.index t (0 : Fin 3); omega
    · show win0_1.index t (1 : Fin 3) * 1024 + 1 * (j 1).val = 4096 + (win0_0.index t (1 : Fin 3) * 1024 + (j 1).val); omega
    · show win0_1.index t (2 : Fin 3) * 512 + 1 * (j 2).val = (j 2).val; omega
    · show win0_0.index t (1 : Fin 3) * 2048 + 2 * (j 1).val = 2 * (win0_0.index t (1 : Fin 3) * 1024 + (j 1).val); omega
    · show win0_0.index t (1 : Fin 3) * 2048 + (2 * (j 1).val + 1) = 2 * (win0_0.index t (1 : Fin 3) * 1024 + (j 1).val) + 1; omega

/-- An index of the array is in point t's block iff each coordinate is in the block's range on its axis. -/
theorem mem_block (t : Fin cfg0.N) (i : S16x8192x512.Idx) :
    i ∈ ((cfg0.win 1).blk t).view.set ↔ ∀ a : Fin 3, win0_1.index t a * S1x1024x512.size a ≤ (i a).val
      ∧ (i a).val < win0_1.index t a * S1x1024x512.size a + S1x1024x512.size a := by
  show i ∈ ((View.whole main_v0).slice (win0_1.rect t)).set ↔ _
  rw [View.set_slice_whole, Rect.mem_set_unit]
  exact Iff.rfl

/-- The blocks tile the array: row r of batch b is in the block of the point whose output block index is (b, r / 1024, 0). -/
theorem covered (i : S16x8192x512.Idx) :
    ∃ t : Fin cfg0.N, (cfg0.win 1).flush t = true ∧ i ∈ ((cfg0.win 1).blk t).view.set := by
  have hi0 : (i 0).val < 16 := (i 0).isLt
  have hi1 : (i 1).val < 8192 := (i 1).isLt
  have hi2 : (i 2).val < 512 := (i 2).isLt
  obtain ⟨t, ht⟩ := index_onto ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 512 ≤ (i 2).val ∧ (i 2).val < win0_1.index t (2 : Fin 3) * 512 + 512; omega

/-- THE ARRAY after the run is the transform of the argument array. -/
theorem final (c : Dev nD) : (dats m 0 c).arrAt 1 cfg0.N = haar (V m c main_arg0) :=
  (dats m 0 c).arrAt_eq_of_cover 1 (haar (V m c main_arg0)) (fun t _ => flushed_eq m c t) covered

/-- The kernel's run, read: the result array at the transform of the argument, the argument unchanged. -/
theorem run : θ_run defs (onTc (τ := τ) (main (F := Ideal))) ⟨m, fun _ => 0, ρ⟩ fun r => ∀ c : Dev nD,
      r.2.mem ((c : Thread nD τ).loc main_v0) = haar (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.ReferenceValue.lean ====
/-
  The reference program's result, over the extended reals, is the Haar transform of its argument array.

  The reference regroups the 8192 rows in 4096 pairs, takes the pairs' even members and odd members (rows 2k and
  2k + 1), forms the scaled sums and the scaled differences, each an array of 4096 rows, and lays the differences
  behind the sums along the row axis: row r < 4096 of the result is row r of the sums, row 4096 + k is row k of the
  differences.
-/
import proofs.«149323_j86955907874874_1_alg».proof.Proof.Gen.ReferenceIdeal.Read
import proofs.«149323_j86955907874874_1_alg».proof.Proof.HaarSpec

noncomputable section

namespace Cert.ReferenceIdeal.RefValue

open Cert.ReferenceIdeal Cert.ReferenceIdeal.Gen Cert.ReferenceIdeal.Read Idealize.ShloMosaic
open Idealize.ShloMosaic.ValueIdx Cert.Haar

/-- The pairs' even members: row k is row 2k of the argument. -/
theorem evens_apply (x : (⟨S16x8192x512, .f32⟩ : BufTy).Contents (Elt Ideal)) (b : Fin 16) (k : Fin 4096) (ch : Fin 512)
    (e : Fin 8192) (he : e.val = 2 * k.val) : val_main_v2 (F := Ideal) x (ix3 b k ch) = x (ix3 b e ch) := by
  unfold val_main_v2 val_main_v1 val_main_v0
  exact pair_of_array x _ 0 (by omega) _ _ b k ch e (by omega)

/-- The odd members: row k is row 2k + 1. -/
theorem odds_apply (x : (⟨S16x8192x512, .f32⟩ : BufTy).Contents (Elt Ideal)) (b : Fin 16) (k : Fin 4096) (ch : Fin 512)
    (o : Fin 8192) (ho : o.val = 2 * k.val + 1) : val_main_v4 (F := Ideal) x (ix3 b k ch) = x (ix3 b o ch) := by
  unfold val_main_v4 val_main_v3 val_main_v0
  exact pair_of_array x _ 1 (by omega) _ _ b k ch o ho

/-- The broadcast coefficient is the transform's scale at every index (both copies). -/
theorem scale_sums (i : S16x4096x512.Idx) : val_main_v6 (F := Ideal) i = scale := (val_main_v6_apply i).trans rfl
theorem scale_diffs (i : S16x4096x512.Idx) : val_main_v9 (F := Ideal) i = scale := (val_main_v9_apply i).trans rfl

/-- The scaled sums at (b, k, ch). -/
theorem sums_apply (x : (⟨S16x8192x512, .f32⟩ : BufTy).Contents (Elt Ideal)) (b : Fin 16) (k : Fin 4096) (ch : Fin 512)
    (e o : Fin 8192) (he : e.val = 2 * k.val) (ho : o.val = 2 * k.val + 1) :
    val_main_v7 (F := Ideal) x (ix3 b k ch) = (x (ix3 b e ch) + x (ix3 b o ch)) * scale := by
  show (val_main_v2 (F := Ideal) x (ix3 b k ch) + val_main_v4 (F := Ideal) x (ix3 b k ch)) * val_main_v6 (F := Ideal) (ix3 b k ch) = _
  rw [evens_apply x b k ch e he, odds_apply x b k ch o ho, scale_sums]

/-- The scaled differences at (b, k, ch). -/
theorem diffs_apply (x : (⟨S16x8192x512, .f32⟩ : BufTy).Contents (Elt Ideal)) (b : Fin 16) (k : Fin 4096) (ch : Fin 512)
    (e o : Fin 8192) (he : e.val = 2 * k.val) (ho : o.val = 2 * k.val + 1) :
    val_main_v10 (F := Ideal) x (ix3 b k ch) = (x (ix3 b e ch) - x (ix3 b o ch)) * scale := by
  show (val_main_v2 (F := Ideal) x (ix3 b k ch) - val_main_v4 (F := Ideal) x (ix3 b k ch)) * val_main_v9 (F := Ideal) (ix3 b k ch) = _
  rw [evens_apply x b k ch e he, odds_apply x b k ch o ho, scale_diffs]

/-- The reference's result is the transform. -/
theorem reference_eq (x : (⟨S16x8192x512, .f32⟩ : BufTy).Contents (Elt Ideal)) :
    val_main_v11 (F := Ideal) x = haar x := by
  funext i
  have hi1 : (i 1).val < 8192 := (i 1).isLt
  obtain ⟨B, hB⟩ : ∃ B : Fin 16, (i 0).val = B.val := ⟨⟨(i 0).val, (i 0).isLt⟩, rfl⟩
  obtain ⟨C, hC⟩ : ∃ C : Fin 512, (i 2).val = C.val := ⟨⟨(i 2).val, (i 2).isLt⟩, rfl⟩
  unfold val_main_v11
  by_cases h : (i 1).val < 4096
  · obtain ⟨d, hd⟩ : ∃ d : Fin 4096, (i 1).val = d.val := ⟨⟨(i 1).val, h⟩, rfl⟩
    have hE : 2 * d.val < 8192 := by have := d.isLt; omega
    have hO : 2 * d.val + 1 < 8192 := by have := d.isLt; omega
    refine (concatenate_pair_apply_left (t := S16x8192x512) (s₁ := S16x4096x512) (s₂ := S16x4096x512) _ _ _ _ i rfl
      (ix3 B d C) (fun a => ?_)).trans ?_
    · match a with
      | ⟨0, _⟩ => exact hB.symm
      | ⟨1, _⟩ => exact hd.symm
      | ⟨2, _⟩ => exact hC.symm
    rw [sums_apply x B d C (⟨2 * d.val, hE⟩ : Fin 8192) (⟨2 * d.val + 1, hO⟩ : Fin 8192) rfl rfl]
    exact (haar_sum x i B d C (⟨2 * d.val, hE⟩ : Fin 8192) (⟨2 * d.val + 1, hO⟩ : Fin 8192) hB hd hC rfl rfl).symm
  · have hk : (i 1).val - 4096 < 4096 := by omega
    obtain ⟨d, hd⟩ : ∃ d : Fin 4096, (i 1).val = 4096 + d.val :=
      ⟨⟨(i 1).val - 4096, hk⟩, by show (i 1).val = 4096 + ((i 1).val - 4096); omega⟩
    have hE : 2 * d.val < 8192 := by have := d.isLt; omega
    have hO : 2 * d.val + 1 < 8192 := by have := d.isLt; omega
    refine (concatenate_pair_apply_right (t := S16x8192x512) (s₁ := S16x4096x512) (s₂ := S16x4096x512) _ _ _ _ i rfl rfl
      (ix3 B d C) (fun a ha => ?_) ?_).trans ?_
    · match a with
      | ⟨0, _⟩ => exact hB.symm
      | ⟨1, _⟩ => exact absurd rfl ha
      | ⟨2, _⟩ => exact hC.symm
    · show d.val + 4096 = (i 1).val
      omega
    rw [diffs_apply x B d C (⟨2 * d.val, hE⟩ : Fin 8192) (⟨2 * d.val + 1, hO⟩ : Fin 8192) rfl rfl]
    exact (haar_diff x i B d C (⟨2 * d.val, hE⟩ : Fin 8192) (⟨2 * d.val + 1, hO⟩ : Fin 8192) hB hd hC rfl rfl).symm

end Cert.ReferenceIdeal.RefValue

end
-- ==== Proof.lean ====
/-
  A single-level Haar wavelet transform along the row axis of x : f32[16, 8192, 512], computed by a tiled kernel and by a
  whole-array reference, agree over the extended reals.

  Both compute, for every batch b, channel ch and k < 4096,
      out[b, k, ch]        = (x[b, 2k, ch] + x[b, 2k+1, ch]) * s      (approximation coefficients)
      out[b, 4096 + k, ch] = (x[b, 2k, ch] - x[b, 2k+1, ch]) * s      (detail coefficients)
  with the SAME number s (one binary32 word, never evaluated). The kernel does so block by block: grid point (b, c, h)
  reads rows [2048 c, 2048 (c+1)) and writes the 1024 sums (h = 0) or differences (h = 1) of their pairs to row block
  4 h + c. The reference regroups all rows in pairs, slices the two members out, and concatenates sums and differences.
  The same operations meet the same operands in the same order, so no law of the extended reals is needed and the
  finiteness precondition is not used: the proof is the re-indexing.

    * HaarSpec         the transform as one function of the array; rows regrouped in pairs read at an index
    * BlockValue       what one grid point leaves in its output block
    * KernelArray      the blocks tile the array: the kernel's result array is the transform
    * ReferenceValue   the reference's result array is the transform
  The three frames are the generated ones (the reference's from its generated run); the idealization rewrote nothing.
-/
import proofs.«149323_j86955907874874_1_alg».proof.Defs
import proofs.«149323_j86955907874874_1_alg».proof.Proof.Gen.Kernel
import proofs.«149323_j86955907874874_1_alg».proof.Proof.Gen.Kernel.Skeleton
import proofs.«149323_j86955907874874_1_alg».proof.Proof.Gen.Kernel.Launch
import proofs.«149323_j86955907874874_1_alg».proof.Proof.Gen.Kernel.Points
import proofs.«149323_j86955907874874_1_alg».proof.Proof.Gen.Kernel.Frame
import proofs.«149323_j86955907874874_1_alg».proof.Proof.Gen.KernelIdeal
import proofs.«149323_j86955907874874_1_alg».proof.Proof.Gen.KernelIdeal.Skeleton
import proofs.«149323_j86955907874874_1_alg».proof.Proof.Gen.KernelIdeal.Launch
import proofs.«149323_j86955907874874_1_alg».proof.Proof.Gen.KernelIdeal.Points
import proofs.«149323_j86955907874874_1_alg».proof.Proof.Gen.KernelIdeal.Frame
import proofs.«149323_j86955907874874_1_alg».proof.Proof.Gen.ReferenceIdeal
import proofs.«149323_j86955907874874_1_alg».proof.Proof.Gen.Pre_finite_inputs
import proofs.«149323_j86955907874874_1_alg».proof.Proof.Gen.KernelIdeal.Value
import proofs.«149323_j86955907874874_1_alg».proof.Proof.Gen.ReferenceIdeal.Run
import proofs.«149323_j86955907874874_1_alg».proof.Proof.Gen.ReferenceIdeal.Read
import proofs.«149323_j86955907874874_1_alg».proof.Proof.KernelArray
import proofs.«149323_j86955907874874_1_alg».proof.Proof.ReferenceValue
import Idealize.ShloMosaic.Adequacy
import Idealize.ShloMosaic.Init

noncomputable section

namespace Cert.Proof

open Idealize.ShloMosaic Idealize.SL.Sem

/-- The kernel as printed runs and keeps its argument. -/
theorem frame_kernel [Cert.Kernel.Facts] [Cert.Pre_finite_inputs.Facts] : Cert.frame_Kernel :=
  fun m ρ _ => Cert.Kernel.Gen.frame m ρ

/-- So does its reading over the extended reals. -/
theorem frame_kernel_ideal [Cert.KernelIdeal.Facts] [Cert.Pre_finite_inputs.Facts] : Cert.frame_KernelIdeal :=
  fun m ρ _ => Cert.KernelIdeal.Gen.frame m ρ

/-- The reference runs and keeps its argument: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the argument, both programs end with the transform of that argument in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  exact ((h c).1.trans (Cert.ReferenceIdeal.Read.val_main_v11_eq _)).trans
    ((Cert.ReferenceIdeal.RefValue.reference_eq _).trans (congrArg Cert.Haar.haar (hagree c)))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
